-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S64x64 : Shape := ⟨2, ![64, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S65536x512 .f32) (main_arg1 : FVec F S64x64 .f32) (main_arg2 : FVec F S64x64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S65536x512 : Shape := ⟨2, ![65536, 512]⟩
abbrev S64x64 : Shape := ⟨2, ![64, 64]⟩
abbrev S_ : Shape := ⟨0, ![]⟩
abbrev S8x8 : Shape := ⟨2, ![8, 8]⟩
abbrev S8x8x1x1 : Shape := ⟨4, ![8, 8, 1, 1]⟩
abbrev S1x1x64x64 : Shape := ⟨4, ![1, 1, 64, 64]⟩
abbrev S8x8x64x64 : Shape := ⟨4, ![8, 8, 64, 64]⟩
abbrev S8x64x8x64 : Shape := ⟨4, ![8, 64, 8, 64]⟩
abbrev S512x512 : Shape := ⟨2, ![512, 512]⟩
abbrev S2048x512 : Shape := ⟨2, ![2048, 512]⟩

abbrev nBuf : Space → Nat
  | .hbm => 24
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8x1x1, .i1⟩
  | .hbm, ⟨15, _⟩ => ⟨S1x1x64x64, .f32⟩
  | .hbm, ⟨16, _⟩ => ⟨S1x1x64x64, .f32⟩
  | .hbm, ⟨17, _⟩ => ⟨S8x8x64x64, .i1⟩
  | .hbm, ⟨18, _⟩ => ⟨S8x8x64x64, .f32⟩
  | .hbm, ⟨19, _⟩ => ⟨S8x8x64x64, .f32⟩
  | .hbm, ⟨20, _⟩ => ⟨S8x8x64x64, .f32⟩
  | .hbm, ⟨21, _⟩ => ⟨S8x64x8x64, .f32⟩
  | .hbm, ⟨22, _⟩ => ⟨S512x512, .f32⟩
  | .hbm, ⟨23, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x64_S64x64_1_0 : S64x64.Transposes [1, 0] S64x64
  bcast_S_S64x64 : S_.BroadcastsInDim S64x64 (![] : Fin 0 → Fin S64x64.rank)
  bcast_S_S8x8 : S_.BroadcastsInDim S8x8 (![] : Fin 0 → Fin S8x8.rank)
  bcast_S8x8_S8x8x1x1_0_1 : S8x8.BroadcastsInDim S8x8x1x1 (![0, 1] : Fin 2 → Fin S8x8x1x1.rank)
  bcast_S64x64_S1x1x64x64_2_3 : S64x64.BroadcastsInDim S1x1x64x64 (![2, 3] : Fin 2 → Fin S1x1x64x64.rank)
  bcast_S8x8x1x1_S8x8x64x64_0_1_2_3 : S8x8x1x1.BroadcastsInDim S8x8x64x64 (![0, 1, 2, 3] : Fin 4 → Fin S8x8x64x64.rank)
  bcast_S1x1x64x64_S8x8x64x64_0_1_2_3 : S1x1x64x64.BroadcastsInDim S8x8x64x64 (![0, 1, 2, 3] : Fin 4 → Fin S8x8x64x64.rank)
  transposes_S8x8x64x64_S8x64x8x64_0_2_1_3 : S8x8x64x64.Transposes [0, 2, 1, 3] S8x64x8x64
  shapeCasts_S8x64x8x64_S512x512 : S8x64x8x64.ShapeCasts S512x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S64x64 : Shape := ⟨2, ![64, 64]⟩
abbrev S65536x8x64 : Shape := ⟨3, ![65536, 8, 64]⟩
abbrev S_ : Shape := ⟨0, ![]⟩
abbrev S65536x64 : Shape := ⟨2, ![65536, 64]⟩
abbrev S65536x1x64 : Shape := ⟨3, ![65536, 1, 64]⟩

abbrev nBuf : Space → Nat
  | .hbm => 17
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S64x64, .f32⟩
  | .hbm, ⟨2, _⟩ => ⟨S64x64, .f32⟩
  | .hbm, ⟨3, _⟩ => ⟨S65536x8x64, .f32⟩
  | .hbm, ⟨4, _⟩ => ⟨S_, .f32⟩
  | .hbm, ⟨5, _⟩ => ⟨S65536x64, .f32⟩
  | .hbm, ⟨6, _⟩ => ⟨S65536x1x64, .f32⟩
  | .hbm, ⟨7, _⟩ => ⟨S65536x8x64, .f32⟩
  | .hbm, ⟨8, _⟩ => ⟨S65536x8x64, .f32⟩
  | .hbm, ⟨9, _⟩ => ⟨S65536x8x64, .f32⟩
  | .hbm, ⟨10, _⟩ => ⟨S65536x8x64, .f32⟩
  | .hbm, ⟨11, _⟩ => ⟨S_, .f32⟩
  | .hbm, ⟨12, _⟩ => ⟨S65536x8x64, .f32⟩
  | .hbm, ⟨13, _⟩ => ⟨S65536x8x64, .f32⟩
  | .hbm, ⟨14, _⟩ => ⟨S65536x8x64, .f32⟩
  | .hbm, ⟨15, _⟩ => ⟨S65536x8x64, .f32⟩
  | .hbm, ⟨16, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S65536x512_S65536x8x64 : S65536x512.ShapeCasts S65536x8x64
  reducesTo_S65536x8x64_S65536x64_d1 : S65536x8x64.ReducesTo [1] S65536x64
  h_S_ : 0 < S_.numel
  bcast_S65536x64_S65536x1x64_0_2 : S65536x64.BroadcastsInDim S65536x1x64 (![0, 2] : Fin 2 → Fin S65536x1x64.rank)
  bcast_S65536x1x64_S65536x8x64_0_1_2 : S65536x1x64.BroadcastsInDim S65536x8x64 (![0, 1, 2] : Fin 3 → Fin S65536x8x64.rank)
  bcast_S_S65536x8x64 : S_.BroadcastsInDim S65536x8x64 (![] : Fin 0 → Fin S65536x8x64.rank)
  shapeCasts_S65536x8x64_S65536x512 : S65536x8x64.ShapeCasts S65536x512
  dot_S65536x8x64_S64x64_S65536x8x64_2_1_01_0_n_n_wf : DotDims.WF S65536x8x64 S64x64 S65536x8x64 [2] [1] [0, 1] [0] [] []

variable [Facts₀]

def dot_S65536x8x64_S64x64_S65536x8x64_2_1_01_0_n_n : DotDims S65536x8x64 S64x64 S65536x8x64 where
  lhsContracting := [2]
  rhsContracting := [1]
  lhsNonContracting := [0, 1]
  rhsNonContracting := [0]
  lhsBatch := []
  rhsBatch := []
  wf := dot_S65536x8x64_S64x64_S65536x8x64_2_1_01_0_n_n_wf

class Facts : Prop extends Facts₀ where

variable [Facts]
-- ==== Proof.Algebra.lean ====
/-
  The arithmetic that joins the two programs.

  One output row mixes eight agents of 64 features each.  Written as ONE contraction over all 512 input features
  against a block matrix — the diagonal 64×64 block holds `h`, every off-diagonal block holds `c / 7` —, the sum
  splits by agent; the agent's own block gives `∑ X a k · h k`, and the seven other blocks together give
  `(∑ (S k − X a k) · c k) / 7` with `S k = ∑ a', X a' k` the sum over all agents.  This is distributivity, so it
  is stated for REAL entries (on the extended reals it fails at infinities) and then carried to the extended reals,
  where a finite sum of reals is the real sum and division by the real 7 is the product with 1/7.
-/
import Idealize.ShloMosaic.PureOps.Ideal
import Idealize.ShloMosaic.PureOps.Ideal.Laws
import Mathlib.Algebra.BigOperators.Fin
import Mathlib.Algebra.BigOperators.Ring.Finset
import Mathlib.Tactic.Ring
import Mathlib.Tactic.NormNum

noncomputable section

namespace Cert.Comm

open Idealize.ShloMosaic

/-- A finite sum of reals, read on the extended reals, is the sum of the summands read there. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word `0x40E00000` is the float 7.0, the real 7. -/
theorem ofBits_seven : Ideal.ofBits .f32 0x40E00000#32 = ((7 : ℝ) : EReal) := by
  simp [Ideal.ofBits, Ideal.ieee, -EReal.coe_mul]; norm_num

/-- Feature `d` of agent `a`, as a feature number below 512. -/
def col (a : Fin 8) (d : Fin 64) : Fin 512 := ⟨a.val * 64 + d.val, by have := a.isLt; have := d.isLt; omega⟩

/-- The agent a feature number below 512 belongs to. -/
def agent (k : Fin 512) : Fin 8 := ⟨k.val / 64, by have := k.isLt; omega⟩

/-- Its number inside that agent. -/
def feat (k : Fin 512) : Fin 64 := ⟨k.val % 64, Nat.mod_lt _ (by decide)⟩

theorem agent_col (a : Fin 8) (d : Fin 64) : agent (col a d) = a :=
  Fin.ext (by have := a.isLt; have := d.isLt; show (a.val * 64 + d.val) / 64 = a.val; omega)

theorem feat_col (a : Fin 8) (d : Fin 64) : feat (col a d) = d :=
  Fin.ext (by have := a.isLt; have := d.isLt; show (a.val * 64 + d.val) % 64 = d.val; omega)

theorem col_agent_feat (k : Fin 512) : col (agent k) (feat k) = k :=
  Fin.ext (by show k.val / 64 * 64 + k.val % 64 = k.val; omega)

/-- A feature number below 512 is an agent number and a feature number inside the agent. -/
def split512 : Fin 8 × Fin 64 ≃ Fin 512 where
  toFun p := col p.1 p.2
  invFun k := (agent k, feat k)
  left_inv p := Prod.ext (agent_col p.1 p.2) (feat_col p.1 p.2)
  right_inv k := col_agent_feat k

/-- A sum over the 512 features is the sum over the agents of the sums over each agent's 64 features. -/
theorem sum_fin512 {M : Type} [AddCommMonoid M] (f : Fin 512 → M) :
    ∑ k, f k = ∑ a : Fin 8, ∑ d : Fin 64, f (col a d) :=
  (Equiv.sum_comp split512 f).symm.trans (Fintype.sum_prod_type' (fun (a : Fin 8) (d : Fin 64) => f (col a d)))

/-- The block-matrix contraction, split by agent, over the reals. -/
theorem real_law (X : Fin 8 → Fin 64 → ℝ) (h c : Fin 64 → ℝ) (a : Fin 8) :
    (∑ a' : Fin 8, ∑ k : Fin 64, X a' k * (if a' = a then h k else c k * (1 / 7)))
      = (∑ k, X a k * h k) + (∑ k, ((0 + ∑ a', X a' k) - X a k) * c k) * (1 / 7) := by
  rw [Finset.sum_comm, Finset.sum_mul, ← Finset.sum_add_distrib]
  refine Finset.sum_congr rfl fun k _ => ?_
  have e : ∀ a', X a' k * (if a' = a then h k else c k * (1 / 7))
      = X a' k * (c k * (1 / 7)) + (if a' = a then X a' k * (h k - c k * (1 / 7)) else 0) := by
    intro a'; split_ifs <;> ring
  simp only [e, Finset.sum_add_distrib, Finset.sum_ite_eq', Finset.mem_univ, if_true, ← Finset.sum_mul]
  ring

/-- The same on the extended reals, for real entries, with the division by 7 as the programs spell it: on the left
    what the reference computes (the agent's own product, plus the seventh of the product with the other agents' sum),
    on the right the one contraction against the block matrix. -/
theorem comm_law (X : Fin 8 → Fin 64 → ℝ) (h c : Fin 64 → ℝ) (a : Fin 8) :
    (∑ k : Fin 64, (X a k : EReal) * (h k : EReal))
        + Ideal.div (∑ k : Fin 64, (((0 : EReal) + ∑ a' : Fin 8, (X a' k : EReal)) - (X a k : EReal)) * (c k : EReal))
            ((7 : ℝ) : EReal)
      = ∑ a' : Fin 8, ∑ k : Fin 64,
          (X a' k : EReal) * (if a' = a then (h k : EReal) else Ideal.div (c k : EReal) ((7 : ℝ) : EReal)) := by
  have h7 : (7 : ℝ) ≠ 0 := by norm_num
  simp only [Ideal.div_coe h7]
  have ite_coe : ∀ (a' : Fin 8) (k : Fin 64),
      (if a' = a then (h k : EReal) else ((c k * (1 / 7) : ℝ) : EReal))
        = ((if a' = a then h k else c k * (1 / 7) : ℝ) : EReal) := by
    intro a' k; split_ifs <;> rfl
  simp only [← EReal.coe_mul]
  simp only [ite_coe, ← EReal.coe_mul, ← coe_sum, ← EReal.coe_zero, ← EReal.coe_add, ← EReal.coe_sub]
  exact congrArg _ (real_law X h c a).symm

end Cert.Comm

end
-- ==== Proof.Spec.lean ====
/-
  What both programs compute, as one function of the three argument arrays.

  `W H C` is the 512×512 matrix made of 8×8 blocks of size 64×64: entry (a'·64+d, a·64+e) is `H (e, d)` on the
  diagonal blocks (a' = a) and `C (e, d) / 7` off them.  The result at (b, j) is `tanh (∑ₖ x (b, k) · W (k, j))`.
  `ref_law` says that, for real entries, the agent-wise formula of the reference — the agent's own features against
  `H`, plus a seventh of (all agents' sum minus its own features) against `C` — is that same number.
-/
import proofs.«180216_j87067577024538_1_alg».proof.Proof.Algebra
import Idealize.ShloMosaic.Lib.ValueIdx

noncomputable section

namespace Cert.Comm

open Idealize.ShloMosaic Idealize.ShloMosaic.ValueIdx

abbrev M64 : Shape := ⟨2, ![64, 64]⟩
abbrev M512 : Shape := ⟨2, ![512, 512]⟩
abbrev XS : Shape := ⟨2, ![65536, 512]⟩

/-- One entry of the block matrix: row feature `d` of agent `a'`, column feature `e` of agent `a`. -/
def wEntry (H C : M64.Idx → EReal) (a' a : Fin 8) (d e : Fin 64) : EReal :=
  if a' = a then H (ix2 e d) else Ideal.div (C (ix2 e d)) (Ideal.ofBits .f32 0x40E00000#32)

/-- The block matrix. -/
def W (H C : M64.Idx → EReal) : M512.Idx → EReal := fun p =>
  wEntry H C (agent (p 0)) (agent (p 1)) (feat (p 0)) (feat (p 1))

/-- The result: `tanh` of the input row against a column of the block matrix. -/
def G (x : XS.Idx → EReal) (H C : M64.Idx → EReal) : XS.Idx → EReal := fun i =>
  Ideal.tanh (∑ k : Fin 512, x (ix2 (i 0) k) * W H C (ix2 k (i 1)))

theorem W_col (H C : M64.Idx → EReal) (a' : Fin 8) (d : Fin 64) (j : Fin 512) :
    W H C (ix2 (col a' d) j) = wEntry H C a' (agent j) d (feat j) := by
  show wEntry H C (agent (col a' d)) (agent j) (feat (col a' d)) (feat j) = _
  rw [agent_col, feat_col]

/-- For real entries the reference's agent-wise formula at row `b`, column `j` is `G` there. -/
theorem ref_law (x : XS.Idx → EReal) (H C : M64.Idx → EReal)
    (hx : ∀ i, ∃ r : ℝ, x i = (r : EReal)) (hH : ∀ i, ∃ r : ℝ, H i = (r : EReal)) (hC : ∀ i, ∃ r : ℝ, C i = (r : EReal))
    (b : Fin 65536) (j : Fin 512) :
    Ideal.tanh ((∑ k : Fin 64, x (ix2 b (col (agent j) k)) * H (ix2 (feat j) k))
        + Ideal.div (∑ k : Fin 64, (((0 : EReal) + ∑ a' : Fin 8, x (ix2 b (col a' k))) - x (ix2 b (col (agent j) k)))
              * C (ix2 (feat j) k)) (Ideal.ofBits .f32 0x40E00000#32))
      = G x H C (ix2 b j) := by
  choose xr hxr using hx
  choose hr hhr using hH
  choose cr hcr using hC
  show _ = Ideal.tanh (∑ k : Fin 512, x (ix2 b k) * W H C (ix2 k j))
  rw [sum_fin512]
  simp only [W_col, wEntry, hxr, hhr, hcr, ofBits_seven]
  exact congrArg Ideal.tanh
    (comm_law (fun a' d => xr (ix2 b (col a' d))) (fun k => hr (ix2 (feat j) k)) (fun k => cr (ix2 (feat j) k)) (agent j))

end Cert.Comm

end
-- ==== Proof.Weights.lean ====
/-
  The weight matrix the kernel's region finds.

  Before the region the program builds, from `H` and `C`, a 512×512 array: both are transposed, `Cᵀ` is divided by
  7, an 8×8 mask marks the diagonal (row agent = column agent), the mask chooses `Hᵀ` or `Cᵀ/7` for each of the
  8×8 blocks, and the [agent', agent, d, e] array is re-laid as [agent', d, agent, e] and flattened.  Read at an index
  (agent'·64+d, agent·64+e) this is `H (e, d)` when the agents agree and `C (e, d) / 7` otherwise: the block matrix
  `W` of the specification.
-/
import proofs.«180216_j87067577024538_1_alg».proof.Proof.Gen.KernelIdeal.Frame
import proofs.«180216_j87067577024538_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

noncomputable section

namespace Cert.KernelIdeal.Weights

open Cert.KernelIdeal Cert.KernelIdeal.Gen Idealize.ShloMosaic Idealize.ShloMosaic.TcCoe Idealize.SL.Sem
open Idealize.ShloMosaic.ValueIdx Idealize.ShloMosaic.StableHlo Cert.Comm

/-- The 8×8 mask of the diagonal: row number plus zero equals column number. -/
def mask : IVec S8x8 1 :=
  cmpi .eq (addi (iotaInDim S8x8 32 0) (broadcastInDim S8x8 ![] bcast_S_S8x8 (constantI S_ 32 0#32))) (iotaInDim S8x8 32 1)

/-- `Cᵀ / 7`. -/
def cScaled (C : FVec Ideal S64x64 .f32) : FVec Ideal S64x64 .f32 :=
  Host.divf (transpose S64x64 [1, 0] C transposes_S64x64_S64x64_1_0)
    (broadcastInDim S64x64 ![] bcast_S_S64x64 (constant S_ .f32 0x40E00000#32))

/-- The [agent', agent, d, e] array of blocks. -/
def blocks (H C : FVec Ideal S64x64 .f32) : FVec Ideal S8x8x64x64 .f32 :=
  select
    (broadcastInDim S8x8x64x64 ![0, 1, 2, 3] bcast_S8x8x1x1_S8x8x64x64_0_1_2_3
      (broadcastInDim S8x8x1x1 ![0, 1] bcast_S8x8_S8x8x1x1_0_1 mask))
    (broadcastInDim S8x8x64x64 ![0, 1, 2, 3] bcast_S1x1x64x64_S8x8x64x64_0_1_2_3
      (broadcastInDim S1x1x64x64 ![2, 3] bcast_S64x64_S1x1x64x64_2_3 (transpose S64x64 [1, 0] H transposes_S64x64_S64x64_1_0)))
    (broadcastInDim S8x8x64x64 ![0, 1, 2, 3] bcast_S1x1x64x64_S8x8x64x64_0_1_2_3
      (broadcastInDim S1x1x64x64 ![2, 3] bcast_S64x64_S1x1x64x64_2_3 (cScaled C)))

/-- The 512×512 array the host operations leave for the region. -/
def wterm (H C : FVec Ideal S64x64 .f32) : FVec Ideal S512x512 .f32 :=
  shapeCast S512x512 (transpose S8x64x8x64 [0, 2, 1, 3] (blocks H C) transposes_S8x8x64x64_S8x64x8x64_0_2_1_3)
    shapeCasts_S8x64x8x64_S512x512

/-- The region finds `main_v14` at that array of the two weight arguments. -/
theorem V_main_v14 (m : (ℓ : Loc nD τ sig) → Buf (Elt Ideal) ℓ) (c : Dev nD) :
    (V m c main_v14 : S512x512.Idx → EReal)
      = wterm (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results
  rfl

/-- The mask is set exactly on the diagonal. -/
theorem mask_apply (a' a : Fin 8) : mask (ix2 a' a) = 1#1 ↔ a' = a := by
  show IntOp.cmpi .eq (IntOp.addi (BitVec.ofNat 32 a'.val) 0#32) (BitVec.ofNat 32 a.val) = 1#1 ↔ a' = a
  rw [Predicate.cmpi_eq_iff]
  revert a' a
  decide

/-- `Cᵀ / 7` at (d, e) is `C (e, d) / 7`. -/
theorem cScaled_apply (C : FVec Ideal S64x64 .f32) (d e : Fin 64) :
    cScaled C (ix2 d e) = Ideal.div (C (ix2 e d)) (Ideal.ofBits .f32 0x40E00000#32) := by
  show Ideal.div (transpose S64x64 [1, 0] C transposes_S64x64_S64x64_1_0 (ix2 d e)) (Ideal.ofBits .f32 0x40E00000#32) = _
  rw [transpose_ix2_apply]

/-- A 64×64 matrix broadcast to every one of the 8×8 blocks reads the matrix at the position inside the block. -/
theorem tile_apply (Y : FVec Ideal S64x64 .f32) (a' a : Fin 8) (d e : Fin 64) :
    broadcastInDim S8x8x64x64 ![0, 1, 2, 3] bcast_S1x1x64x64_S8x8x64x64_0_1_2_3
      (broadcastInDim S1x1x64x64 ![2, 3] bcast_S64x64_S1x1x64x64_2_3 Y) (ix4 a' a d e) = Y (ix2 d e) := by
  rw [broadcastInDim_apply _ bcast_S1x1x64x64_S8x8x64x64_0_1_2_3 _ (ix4 a' a d e) (ix4 (0 : Fin 1) (0 : Fin 1) d e)
    (fun b => match b with
      | ⟨0, _⟩ => by show (0 : Nat) = if (1 : Nat) = 1 then 0 else a'.val; rw [if_pos rfl]
      | ⟨1, _⟩ => by show (0 : Nat) = if (1 : Nat) = 1 then 0 else a.val; rw [if_pos rfl]
      | ⟨2, _⟩ => by show d.val = if (64 : Nat) = 1 then 0 else d.val; rw [if_neg (by decide)]
      | ⟨3, _⟩ => by show e.val = if (64 : Nat) = 1 then 0 else e.val; rw [if_neg (by decide)])]
  exact broadcastInDim_apply _ bcast_S64x64_S1x1x64x64_2_3 Y (ix4 (0 : Fin 1) (0 : Fin 1) d e) (ix2 d e)
    (fun b => match b with
      | ⟨0, _⟩ => by show d.val = if (64 : Nat) = 1 then 0 else d.val; rw [if_neg (by decide)]
      | ⟨1, _⟩ => by show e.val = if (64 : Nat) = 1 then 0 else e.val; rw [if_neg (by decide)])

/-- The mask broadcast over every block reads the mask at the block's two agent numbers. -/
theorem maskTile_apply (a' a : Fin 8) (d e : Fin 64) :
    broadcastInDim S8x8x64x64 ![0, 1, 2, 3] bcast_S8x8x1x1_S8x8x64x64_0_1_2_3
      (broadcastInDim S8x8x1x1 ![0, 1] bcast_S8x8_S8x8x1x1_0_1 mask) (ix4 a' a d e) = mask (ix2 a' a) := by
  rw [broadcastInDim_apply _ bcast_S8x8x1x1_S8x8x64x64_0_1_2_3 _ (ix4 a' a d e) (ix4 a' a (0 : Fin 1) (0 : Fin 1))
    (fun b => match b with
      | ⟨0, _⟩ => by show a'.val = if (8 : Nat) = 1 then 0 else a'.val; rw [if_neg (by decide)]
      | ⟨1, _⟩ => by show a.val = if (8 : Nat) = 1 then 0 else a.val; rw [if_neg (by decide)]
      | ⟨2, _⟩ => by show (0 : Nat) = if (1 : Nat) = 1 then 0 else d.val; rw [if_pos rfl]
      | ⟨3, _⟩ => by show (0 : Nat) = if (1 : Nat) = 1 then 0 else e.val; rw [if_pos rfl])]
  exact broadcastInDim_apply _ bcast_S8x8_S8x8x1x1_0_1 mask (ix4 a' a (0 : Fin 1) (0 : Fin 1)) (ix2 a' a)
    (fun b => match b with
      | ⟨0, _⟩ => by show a'.val = if (8 : Nat) = 1 then 0 else a'.val; rw [if_neg (by decide)]
      | ⟨1, _⟩ => by show a.val = if (8 : Nat) = 1 then 0 else a.val; rw [if_neg (by decide)])

/-- One entry of the array of blocks. -/
theorem blocks_apply (H C : FVec Ideal S64x64 .f32) (a' a : Fin 8) (d e : Fin 64) :
    blocks H C (ix4 a' a d e) = wEntry H C a' a d e := by
  unfold blocks
  rw [select_apply, maskTile_apply, tile_apply, tile_apply, cScaled_apply, transpose_ix2_apply]
  unfold wEntry
  by_cases h : a' = a
  · rw [(mask_apply a' a).mpr h, select_one, if_pos h]
  · rw [eq_zero_of_ne_one (fun hm => h ((mask_apply a' a).mp hm)), select_zero, if_neg h]

/-- The array the region finds, read at an index, is the block matrix of the specification. -/
theorem wterm_eq (H C : FVec Ideal S64x64 .f32) : wterm H C = W H C := by
  funext p
  obtain ⟨r, q, rfl⟩ : ∃ (r q : Fin 512), p = ix2 r q := ⟨p 0, p 1, eq_ix2 p⟩
  unfold wterm
  rw [shapeCast_apply _ shapeCasts_S8x64x8x64_S512x512 (ix2 r q) (ix4 (agent r) (feat r) (agent q) (feat q))
    (by rw [Shape.rowMajor_val_four, Shape.rowMajor_val_two]
        have hr := r.isLt; have hq := q.isLt
        show ((r.val / 64 * 64 + r.val % 64) * 8 + q.val / 64) * 64 + q.val % 64 = r.val * 512 + q.val
        omega)]
  rw [transpose_apply _ _ transposes_S8x8x64x64_S8x64x8x64_0_2_1_3 (ix4 (agent r) (feat r) (agent q) (feat q))
    (ix4 (agent r) (agent q) (feat r) (feat q))
    (fun b => match b with | ⟨0, _⟩ => rfl | ⟨1, _⟩ => rfl | ⟨2, _⟩ => rfl | ⟨3, _⟩ => rfl)]
  rw [blocks_apply]
  rfl

end Cert.KernelIdeal.Weights

end
-- ==== Proof.KernelValue.lean ====
/-
  What the kernel's run leaves in its result array.

  The grid has 32 points; point `t` loads rows t·2048 … t·2048+2047 of `x` and the whole 512×512 weight array,
  multiplies them (the product into a zero accumulator is the plain sum over the 512 features), applies `tanh`
  and stores the 2048×512 block back to the same rows of the result.  The weight array is the block matrix `W`
  (Weights), so the block point `t` writes is block `t` of the specification's `G`; the 32 blocks cover all
  65536 rows, hence the result array is `G` of the three arguments.
-/
import proofs.«180216_j87067577024538_1_alg».proof.Proof.Gen.KernelIdeal.Value
import proofs.«180216_j87067577024538_1_alg».proof.Proof.Weights
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Comm

/-! ## The body's product at an index -/

theorem lhs_axis0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem lhs_axis1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_axis0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_axis1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The stored value at row `p`, column `q` of the block: `tanh` of the sum over the 512 features of the loaded row
    of `x` against the loaded column of the weights (the narrowing to bf16 changes nothing on the extended reals). -/
theorem pay_apply (x0 : Vec Ideal S2048x512 .f32) (x1 : Vec Ideal S512x512 .f32) (p : Fin 2048) (q : Fin 512) :
    k0_pay1 (F := Ideal) x0 x1 (ix2 p q) = Ideal.tanh (∑ k : Fin 512, x0 (ix2 p k) * x1 (ix2 k q)) := by
  unfold k0_pay1
  show Ideal.tanh (FloatOps.matmul (F := Ideal) dot_S2048x512_S512x512_S2048x512_1_0_0_1_n_n none
      (truncf .bf16 x0 bitsLt_bf16_f32)
      (truncf .bf16 (shapeCast S512x512 x1 shapeCasts_S512x512_S512x512) bitsLt_bf16_f32)
      (constant S2048x512 .f32 0x00000000#32) (ix2 p q)) = _
  rw [Ideal.matmul_constant_zero_apply,
    ← Equiv.sum_comp (contrEquiv1 dot_S2048x512_S512x512_S2048x512_1_0_0_1_n_n 512 rfl rfl).symm]
  refine congrArg Ideal.tanh (Finset.sum_congr rfl fun k _ => ?_)
  have hk := contrEquiv1_symm_val dot_S2048x512_S512x512_S2048x512_1_0_0_1_n_n 512 rfl rfl k
  have el : dot_S2048x512_S512x512_S2048x512_1_0_0_1_n_n.lhsIdx (ix2 p q)
      ((contrEquiv1 dot_S2048x512_S512x512_S2048x512_1_0_0_1_n_n 512 rfl rfl).symm k) = ix2 p k :=
    funext fun a => Fin.ext (by
      match a with
      | ⟨0, _⟩ => exact lhs_axis0 _ _
      | ⟨1, _⟩ => exact (lhs_axis1 _ _).trans hk)
  have er : dot_S2048x512_S512x512_S2048x512_1_0_0_1_n_n.rhsIdx (ix2 p q)
      ((contrEquiv1 dot_S2048x512_S512x512_S2048x512_1_0_0_1_n_n 512 rfl rfl).symm k) = ix2 k q :=
    funext fun a => Fin.ext (by
      match a with
      | ⟨0, _⟩ => exact (rhs_axis0 _ _).trans hk
      | ⟨1, _⟩ => exact rhs_axis1 _ _)
  rw [el, er, shapeCast_self]
  rfl

/-! ## The blocks -/

variable (m : (ℓ : Loc nD τ sig) → Buf (Elt Ideal) ℓ) (ρ : Dev nD → PrngReg)

theorem hz : (![0, 0] : Fin 2 → Nat) = fun _ => 0 := funext fun a => by fin_cases a <;> rfl

/-- The three argument arrays on core `c`, as functions into the extended reals. -/
abbrev xarr (c : Dev nD) : S65536x512.Idx → EReal := m ((c : Thread nD τ).loc main_arg0)
abbrev harr (c : Dev nD) : S64x64.Idx → EReal := m ((c : Thread nD τ).loc main_arg1)
abbrev carr (c : Dev nD) : S64x64.Idx → EReal := m ((c : Thread nD τ).loc main_arg2)

/-- The printed index maps over the 32 points: the row blocks of `x` and of the result move with the point, the weight
    array is always its one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block, as a row of the whole array. -/
def row (t : Fin cfg0.N) (p : Fin 2048) : Fin 65536 :=
  ⟨t.val * 2048 + p.val, by have ht : t.val < 32 := t.isLt; have := p.isLt; omega⟩

/-- The block of `x` point `t` loads, read at (p, k): row t·2048+p of the argument. -/
theorem xblk_apply (c : Dev nD) (t : Fin cfg0.N) (p : Fin 2048) (k : Fin 512) :
    iblk m c 0 t (ix2 p k) = m ((c : Thread nD τ).loc main_arg0) (ix2 (row t p) k) := by
  show V m c main_arg0 (((cfg0.win 0).blk t).view.emb (ix2 p k)) = _
  rw [V_main_arg0]
  obtain ⟨e0, e1, -, -, -, -⟩ := idx_facts t
  refine congrArg (m ((c : Thread nD τ).loc main_arg0)) (funext fun a => Fin.ext ?_)
  match a with
  | ⟨0, _⟩ => show win0_0.index t (0 : Fin 2) * 2048 + 1 * p.val = t.val * 2048 + p.val; omega
  | ⟨1, _⟩ => show win0_0.index t (1 : Fin 2) * 512 + 1 * k.val = k.val; omega

/-- The weight block every point loads, read at (k, q): the block matrix of the two weight arguments. -/
theorem wblk_apply (c : Dev nD) (t : Fin cfg0.N) (k q : Fin 512) :
    iblk m c 1 t (ix2 k q)
      = W (m ((c : Thread nD τ).loc main_arg1)) (m ((c : Thread nD τ).loc main_arg2)) (ix2 k q) := by
  show V m c main_v14 (((cfg0.win 1).blk t).view.emb (ix2 k q)) = _
  rw [Weights.V_main_v14, Weights.wterm_eq]
  obtain ⟨-, -, e2, e3, -, -⟩ := idx_facts t
  refine congrArg (W _ _) (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- WHAT POINT `t` WRITES BACK is block `t` of `G` of the three arguments. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1)) (m ((c : Thread nD τ).loc main_arg2))) := by
  rw [Value.flushed2]
  unfold out0_2
  rw [View.canon_unit_zero hz]
  simp only [View.ld_unit_zero (S := S2048x512) hz, View.ld_unit_zero (S := S512x512) hz]
  funext j
  obtain ⟨p, q, rfl⟩ : ∃ (p : Fin 2048) (q : Fin 512), j = ix2 p q := ⟨j 0, j 1, eq_ix2 j⟩
  show k0_pay1 (F := Ideal) (iblk m c 0 t) (iblk m c 1 t) (ix2 p q)
    = G (m ((c : Thread nD τ).loc main_arg0)) (m ((c : Thread nD τ).loc main_arg1)) (m ((c : Thread nD τ).loc main_arg2))
        (((cfg0.win 2).blk t).view.emb (ix2 p q))
  refine (pay_apply (iblk m c 0 t) (iblk m c 1 t) p q).trans ?_
  obtain ⟨-, -, -, -, e4, e5⟩ := idx_facts t
  have he : ((cfg0.win 2).blk t).view.emb (ix2 p q) = ix2 (row t p) q := by
    funext a; apply Fin.ext
    match a with
    | ⟨0, _⟩ => show win0_2.index t (0 : Fin 2) * 2048 + 1 * p.val = t.val * 2048 + p.val; omega
    | ⟨1, _⟩ => show win0_2.index t (1 : Fin 2) * 512 + 1 * q.val = q.val; omega
  rw [he]
  show _ = Ideal.tanh (∑ k : Fin 512, xarr m c (ix2 (row t p) k) * W (harr m c) (carr m c) (ix2 k q))
  refine congrArg Ideal.tanh (Finset.sum_congr rfl fun k _ => ?_)
  rw [xblk_apply, wblk_apply]

/-- An index of the result array is in point `t`'s block iff each coordinate is in the block's range. -/
theorem mem_blk (t : Fin cfg0.N) (i : S65536x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v15).slice (win0_2.rect t)).set ↔ _
  rw [View.set_slice_whole, Rect.mem_set_unit]
  exact Iff.rfl

/-- Every index of the result array is in the block of the point its row falls in. -/
theorem cover (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  have hlt : (i 0).val / 2048 < 32 := by omega
  refine ⟨⟨(i 0).val / 2048, hlt⟩, flush0_2 _, ?_⟩
  rw [mem_blk]
  obtain ⟨-, -, -, -, e4, e5⟩ := idx_facts ⟨(i 0).val / 2048, hlt⟩
  have e4' : win0_2.index ⟨(i 0).val / 2048, hlt⟩ (0 : Fin 2) = (i 0).val / 2048 := e4
  intro a
  match a with
  | ⟨0, _⟩ =>
    show win0_2.index ⟨(i 0).val / 2048, hlt⟩ (0 : Fin 2) * 2048 ≤ (i 0).val
      ∧ (i 0).val < win0_2.index ⟨(i 0).val / 2048, hlt⟩ (0 : Fin 2) * 2048 + 2048
    omega
  | ⟨1, _⟩ =>
    show win0_2.index ⟨(i 0).val / 2048, hlt⟩ (1 : Fin 2) * 512 ≤ (i 1).val
      ∧ (i 1).val < win0_2.index ⟨(i 0).val / 2048, hlt⟩ (1 : Fin 2) * 512 + 512
    omega

/-- THE RESULT ARRAY after the run is `G` of the three arguments. -/
theorem final (c : Dev nD) : (dats m 0 c).arrAt 2 cfg0.N
    = G (m ((c : Thread nD τ).loc main_arg0)) (m ((c : Thread nD τ).loc main_arg1)) (m ((c : Thread nD τ).loc main_arg2)) :=
  (dats m 0 c).arrAt_eq_of_cover 2 _ (fun t _ => flushed_eq m c t) cover

/-- The kernel's run: it ends, the result array at `G` of the arguments, the arguments unchanged. -/
theorem run : θ_run defs (onTc (τ := τ) (main (F := Ideal))) ⟨m, fun _ => 0, ρ⟩ fun r => ∀ c : Dev nD,
      r.2.mem ((c : Thread nD τ).loc main_v15)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefValue.lean ====
/-
  What the reference computes, read at an index.

  The reference views `x` as [row, agent, feature], sums over the agents, subtracts each agent's own features to get
  "the others", contracts the agent's features against `H` and the others against `C` over the feature axis, divides
  the second product by 7, adds, applies `tanh` and flattens back.  Stage by stage at explicit indices this is the
  agent-wise formula of the specification's `ref_law`; for real entries it is therefore `G`.
-/
import proofs.«180216_j87067577024538_1_alg».proof.Proof.Gen.ReferenceIdeal.Read
import proofs.«180216_j87067577024538_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx Cert.Comm

variable (x : S65536x512.Idx → EReal) (H C : S64x64.Idx → EReal)

/-- The [row, agent, feature] view: entry (b, a, d) is `x (b, a·64+d)`. -/
theorem v0_at (b : Fin 65536) (a : Fin 8) (d : Fin 64) :
    val_main_v0 (F := Ideal) x (ix3 b a d) = x (ix2 b (col a d)) := by
  rw [val_main_v0_apply]
  have hb := b.isLt; have ha := a.isLt; have hd := d.isLt
  refine congrArg x (funext fun ax => Fin.ext ?_)
  match ax with
  | ⟨0, _⟩ => show ((b.val * 8 + a.val) * 64 + d.val) / 512 = b.val; omega
  | ⟨1, _⟩ => show ((b.val * 8 + a.val) * 64 + d.val) % 512 = a.val * 64 + d.val; omega

/-- The sum over the agents, from zero. -/
theorem v1_at (b : Fin 65536) (d : Fin 64) :
    val_main_v1 (F := Ideal) x (ix2 b d) = 0 + ∑ a' : Fin 8, x (ix2 b (col a' d)) := by
  rw [val_main_v1_apply]
  show Ideal.ofBits .f32 0x00000000#32 + _ = _
  rw [Ideal.ofBits_zero_f32]
  refine congrArg (0 + ·) (Finset.sum_congr rfl fun k _ => ?_)
  have e : idx_main_v1 (ix2 b d) k = ix3 b k d :=
    funext fun ax => Fin.ext (by match ax with | ⟨0, _⟩ => rfl | ⟨1, _⟩ => rfl | ⟨2, _⟩ => rfl)
  rw [e, v0_at]

/-- That sum repeated for every agent. -/
theorem v3_at (b : Fin 65536) (a : Fin 8) (d : Fin 64) :
    val_main_v3 (F := Ideal) x (ix3 b a d) = val_main_v1 (F := Ideal) x (ix2 b d) := by
  rw [val_main_v3_apply, val_main_v2_apply]
  refine congrArg (val_main_v1 (F := Ideal) x) (funext fun ax => Fin.ext ?_)
  match ax with
  | ⟨0, _⟩ => rfl
  | ⟨1, _⟩ => rfl

/-- The other agents' features: the sum less the agent's own. -/
theorem v4_at (b : Fin 65536) (a : Fin 8) (d : Fin 64) :
    val_main_v4 (F := Ideal) x (ix3 b a d) = (0 + ∑ a' : Fin 8, x (ix2 b (col a' d))) - x (ix2 b (col a d)) := by
  rw [val_main_v4_apply, v3_at, v1_at, v0_at]
  rfl

/-- The agent's own features against `H`. -/
theorem v5_at (b : Fin 65536) (a : Fin 8) (e : Fin 64) :
    val_main_v5 (F := Ideal) x H (ix3 b a e) = ∑ k : Fin 64, x (ix2 b (col a k)) * H (ix2 e k) := by
  rw [val_main_v5_apply]
  refine Finset.sum_congr rfl fun k _ => ?_
  have el : lidx_main_v5 (ix3 b a e) k = ix3 b a k :=
    funext fun ax => Fin.ext (by match ax with | ⟨0, _⟩ => rfl | ⟨1, _⟩ => rfl | ⟨2, _⟩ => rfl)
  have er : ridx_main_v5 (ix3 b a e) k = ix2 e k :=
    funext fun ax => Fin.ext (by match ax with | ⟨0, _⟩ => rfl | ⟨1, _⟩ => rfl)
  rw [el, er, v0_at]

/-- The other agents' features against `C`. -/
theorem v6_at (b : Fin 65536) (a : Fin 8) (e : Fin 64) :
    val_main_v6 (F := Ideal) x C (ix3 b a e)
      = ∑ k : Fin 64, ((0 + ∑ a' : Fin 8, x (ix2 b (col a' k))) - x (ix2 b (col a k))) * C (ix2 e k) := by
  rw [val_main_v6_apply]
  refine Finset.sum_congr rfl fun k _ => ?_
  have el : lidx_main_v6 (ix3 b a e) k = ix3 b a k :=
    funext fun ax => Fin.ext (by match ax with | ⟨0, _⟩ => rfl | ⟨1, _⟩ => rfl | ⟨2, _⟩ => rfl)
  have er : ridx_main_v6 (ix3 b a e) k = ix2 e k :=
    funext fun ax => Fin.ext (by match ax with | ⟨0, _⟩ => rfl | ⟨1, _⟩ => rfl)
  rw [el, er, v4_at]

/-- The divisor is the word 7.0 everywhere. -/
theorem v7_at (j : S65536x8x64.Idx) : val_main_v7 (F := Ideal) j = Ideal.ofBits .f32 0x40E00000#32 := by
  rw [val_main_v7_apply]
  rfl

/-- The value before flattening. -/
theorem v10_at (b : Fin 65536) (a : Fin 8) (e : Fin 64) :
    val_main_v10 (F := Ideal) x H C (ix3 b a e)
      = Ideal.tanh ((∑ k : Fin 64, x (ix2 b (col a k)) * H (ix2 e k))
          + Ideal.div (∑ k : Fin 64, ((0 + ∑ a' : Fin 8, x (ix2 b (col a' k))) - x (ix2 b (col a k))) * C (ix2 e k))
              (Ideal.ofBits .f32 0x40E00000#32)) := by
  rw [val_main_v10_apply, val_main_v9_apply, val_main_v8_apply, v5_at, v6_at, v7_at]
  rfl

/-- Flattening: column `j` is feature `j % 64` of agent `j / 64`. -/
theorem v11_at (b : Fin 65536) (j : Fin 512) :
    val_main_v11 (F := Ideal) x H C (ix2 b j) = val_main_v10 (F := Ideal) x H C (ix3 b (agent j) (feat j)) := by
  rw [val_main_v11_apply]
  have hb := b.isLt; have hj := j.isLt
  refine congrArg (val_main_v10 (F := Ideal) x H C) (funext fun ax => Fin.ext ?_)
  match ax with
  | ⟨0, _⟩ => show (b.val * 512 + j.val) / 512 = b.val; omega
  | ⟨1, _⟩ => show (b.val * 512 + j.val) / 64 % 8 = j.val / 64; omega
  | ⟨2, _⟩ => show (b.val * 512 + j.val) % 64 = j.val % 64; omega

/-- For real entries the reference's result is `G` of its arguments. -/
theorem ref_eq_G (hx : ∀ i, ∃ r : ℝ, x i = (r : EReal)) (hH : ∀ i, ∃ r : ℝ, H i = (r : EReal))
    (hC : ∀ i, ∃ r : ℝ, C i = (r : EReal)) : val_main_v11 (F := Ideal) x H C = G x H C := by
  funext i
  obtain ⟨b, j, rfl⟩ : ∃ (b : Fin 65536) (j : Fin 512), i = ix2 b j := ⟨i 0, i 1, eq_ix2 i⟩
  rw [v11_at, v10_at]
  exact ref_law x H C hx hH hC b j

end Cert.ReferenceIdeal.RefValue

end
-- ==== Proof.Finite.lean ====
/-
  From the precondition to real entries.

  The precondition is the conjunction of three `all`s: every entry of each argument has absolute value below +inf.
  On the extended reals `|x| = max x (−x)`, which is +inf at both infinities, so an entry passing the test is a real
  number.  This is what the distributive law of the specification needs.
-/
import proofs.«180216_j87067577024538_1_alg».proof.Pre_finite_inputs
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- The word `0x7F800000` is +inf. -/
theorem ofBits_inf : Ideal.ofBits .f32 0x7F800000#32 = ⊤ := by
  simp [Ideal.ofBits, Ideal.ieee]

/-- An extended real whose absolute value tests below +inf is a real. -/
theorem real_of_lt (x : EReal) (h : Ideal.cmp .olt (max x (-x)) (Ideal.ofBits .f32 0x7F800000#32) = 1#1) :
    ∃ r : ℝ, x = (r : EReal) := by
  rw [ofBits_inf] at h
  have h2 : BitVec.ofBool (decide (max x (-x) < ⊤)) = 1#1 := h
  have h' : max x (-x) < ⊤ := of_decide_eq_true ((StableHlo.Predicate.ofBool_eq_one_iff _).mp h2)
  induction x using EReal.rec with
  | bot => simp at h'
  | coe r => exact ⟨r, rfl⟩
  | top => simp at h'

variable [Facts]

/-- Under the precondition every entry of the three arguments is a real. -/
theorem reals_of_pre (x : FVec Ideal S65536x512 .f32) (H C : FVec Ideal S64x64 .f32)
    (h : fn (F := Ideal) x H C = fun _ => 1#1) :
    (∀ i, ∃ r : ℝ, x i = (r : EReal)) ∧ (∀ i, ∃ r : ℝ, H i = (r : EReal)) ∧ (∀ i, ∃ r : ℝ, C i = (r : EReal)) := by
  have h0 := congrFun h ValueIdx.ix0
  dsimp only [fn] at h0
  obtain ⟨h38, h12⟩ := IntOp.andi_eq_one.1 h0
  obtain ⟨h3, h7⟩ := IntOp.andi_eq_one.1 h38
  exact ⟨fun i => real_of_lt _ (Host.reduce_andi_all _ _ _ _ _ h3 i),
    fun i => real_of_lt _ (Host.reduce_andi_all _ _ _ _ _ h7 i),
    fun i => real_of_lt _ (Host.reduce_andi_all _ _ _ _ _ h12 i)⟩

end Cert.Pre_finite_inputs.Finite

end
-- ==== Proof.lean ====
/-
  The kernel computes `tanh (x · W)` in one pass over 32 row blocks, with `W` the 512×512 matrix of 8×8 blocks
  (64×64 each) that holds `Hᵀ` on the diagonal blocks and `Cᵀ / 7` elsewhere; the reference computes, per agent,
  `tanh (x_a · Hᵀ + ((∑_{a'} x_{a'}) − x_a) · Cᵀ / 7)`.

  Both are the same function `G` of the three arguments (Proof/Spec.lean):
  · the host operations before the kernel's region leave exactly `W` (Proof/Weights.lean), the body's product into a
    zero accumulator is the sum over the 512 features, and the 32 blocks written back cover the result
    (Proof/KernelValue.lean);
  · the reference, read stage by stage at an index, is the agent-wise formula (Proof/RefValue.lean);
  · the two formulas agree by distributivity (Proof/Algebra.lean), which holds for real entries — and the
    precondition says every entry is finite, hence real (Proof/Finite.lean).
  Changes of float format are the identity on the extended reals, and `tanh` is one function on both sides.
  The three programs' runs (termination, no fault, arguments unchanged) are the generated ones; the idealization
  rewrote no operation, so `preserves` is `True`.
-/
import proofs.«180216_j87067577024538_1_alg».proof.Defs
import proofs.«180216_j87067577024538_1_alg».proof.Proof.Gen.Kernel
import proofs.«180216_j87067577024538_1_alg».proof.Proof.Gen.Kernel.Skeleton
import proofs.«180216_j87067577024538_1_alg».proof.Proof.Gen.Kernel.Launch
import proofs.«180216_j87067577024538_1_alg».proof.Proof.Gen.Kernel.Points
import proofs.«180216_j87067577024538_1_alg».proof.Proof.Gen.Kernel.Frame
import proofs.«180216_j87067577024538_1_alg».proof.Proof.Gen.KernelIdeal
import proofs.«180216_j87067577024538_1_alg».proof.Proof.Gen.KernelIdeal.Skeleton
import proofs.«180216_j87067577024538_1_alg».proof.Proof.Gen.KernelIdeal.Launch
import proofs.«180216_j87067577024538_1_alg».proof.Proof.Gen.KernelIdeal.Points
import proofs.«180216_j87067577024538_1_alg».proof.Proof.Gen.KernelIdeal.Frame
import proofs.«180216_j87067577024538_1_alg».proof.Proof.Gen.ReferenceIdeal
import proofs.«180216_j87067577024538_1_alg».proof.Proof.Gen.KernelIdeal.Value
import proofs.«180216_j87067577024538_1_alg».proof.Proof.Gen.ReferenceIdeal.Run
import proofs.«180216_j87067577024538_1_alg».proof.Proof.Gen.ReferenceIdeal.Read
import proofs.«180216_j87067577024538_1_alg».proof.Proof.Gen.Pre_finite_inputs
import proofs.«180216_j87067577024538_1_alg».proof.Proof.KernelValue
import proofs.«180216_j87067577024538_1_alg».proof.Proof.RefValue
import proofs.«180216_j87067577024538_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with their result array at `G` of the (agreeing) arguments: the kernel by its
    blocks, the reference by the agent-wise formula and distributivity over the real entries the precondition gives. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2]
  obtain ⟨hx, hH, hC⟩ := Cert.Pre_finite_inputs.Finite.reals_of_pre _ _ _ (hpre c)
  exact Cert.ReferenceIdeal.RefValue.ref_eq_G _ _ _ hx hH hC

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
